-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S625000x128 : Shape := ⟨2, ![625000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S625000x128 .f32) (main_arg2 : IVec S2x625000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S625000x128 : Shape := ⟨2, ![625000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S100000x1 : Shape := ⟨2, ![100000, 1]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 18
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S_, .f32⟩
  | .hbm, ⟨8, _⟩ => ⟨S100000x128, .f32⟩
  | .hbm, ⟨9, _⟩ => ⟨S625000x1, .i32⟩
  | .hbm, ⟨10, _⟩ => ⟨S100000x128, .f32⟩
  | .hbm, ⟨11, _⟩ => ⟨S_, .f32⟩
  | .hbm, ⟨12, _⟩ => ⟨S625000x1, .f32⟩
  | .hbm, ⟨13, _⟩ => ⟨S_, .f32⟩
  | .hbm, ⟨14, _⟩ => ⟨S100000x1, .f32⟩
  | .hbm, ⟨15, _⟩ => ⟨S625000x1, .i32⟩
  | .hbm, ⟨16, _⟩ => ⟨S100000x1, .f32⟩
  | .hbm, ⟨17, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x625000_S1x625000_0_0 : S2x625000.Slices ![0, 0] S1x625000
  shapeCasts_S1x625000_S625000 : S1x625000.ShapeCasts S625000
  bcast_S_S100000x128 : S_.BroadcastsInDim S100000x128 (![] : Fin 0 → Fin S100000x128.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S_S100000x1 : S_.BroadcastsInDim S100000x1 (![] : Fin 0 → Fin S100000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000x128_S625000x1_S625000x128_1_0_0_1_wf : ScatterDims.WF S100000x128 S625000x1 S625000x128 [1] [0] [0] 1
  scatter_S100000x1_S625000x1_S625000x1_1_0_0_1_wf : ScatterDims.WF S100000x1 S625000x1 S625000x1 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000x1_S625000x1_S625000x1_1_0_0_1 : ScatterDims S100000x1 S625000x1 S625000x1 where
  updateWindowDims := [1]
  insertedWindowDims := [0]
  scatterDimsToOperandDims := [0]
  indexVectorDim := 1
  wf := scatter_S100000x1_S625000x1_S625000x1_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S625000x128 : Shape := ⟨2, ![625000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S100000x1 : Shape := ⟨2, ![100000, 1]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S625000x128, .f32⟩
  | .hbm, ⟨2, _⟩ => ⟨S2x625000, .i32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S_, .f32⟩
  | .hbm, ⟨8, _⟩ => ⟨S100000x128, .f32⟩
  | .hbm, ⟨9, _⟩ => ⟨S625000x1, .i32⟩
  | .hbm, ⟨10, _⟩ => ⟨S100000x128, .f32⟩
  | .hbm, ⟨11, _⟩ => ⟨S_, .f32⟩
  | .hbm, ⟨12, _⟩ => ⟨S625000x1, .f32⟩
  | .hbm, ⟨13, _⟩ => ⟨S_, .f32⟩
  | .hbm, ⟨14, _⟩ => ⟨S100000x1, .f32⟩
  | .hbm, ⟨15, _⟩ => ⟨S625000x1, .i32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  bcast_S_S100000x128 : S_.BroadcastsInDim S100000x128 (![] : Fin 0 → Fin S100000x128.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S625000x1_S625000x128_1_0_0_1_wf : ScatterDims.WF S100000x128 S625000x1 S625000x128 [1] [0] [0] 1
  scatter_S100000x1_S625000x1_S625000x1_1_0_0_1_wf : ScatterDims.WF S100000x1 S625000x1 S625000x1 [1] [0] [0] 1
  dot_S100000x128_S128x128_S100000x128_1_1_0_0_n_n_wf : DotDims.WF S100000x128 S128x128 S100000x128 [1] [1] [0] [0] [] []

variable [Facts₀]

def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000x1_S625000x1_S625000x1_1_0_0_1 : ScatterDims S100000x1 S625000x1 S625000x1 where
  updateWindowDims := [1]
  insertedWindowDims := [0]
  scatterDimsToOperandDims := [0]
  indexVectorDim := 1
  wf := scatter_S100000x1_S625000x1_S625000x1_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.Spec.lean ====
/-
  The updated node features as ONE function of the five arrays the update reads.

  Entry (r, j) of the result depends on row r of the node features, row r of the per-node sums of edge features, the
  number of edges of node r, row j of the weights and entry j of the bias. The node's feature is averaged with the mean
  of its edges' features: the sum divided by the count, the count taken as at least one, so that a node no edge points
  at divides by one. The averaged row is contracted with row j of the weights (both along their last axis), the bias is
  added, and the logistic function applied.

  The sums and the counts are arguments here: both programs compute them by the same two scatter-adds, so no proof
  needs to know what a scatter-add holds.
-/
import Idealize.ShloMosaic.PureOps.Ideal
import Idealize.ShloMosaic.PureOps.Ideal.Laws
import Idealize.ShloMosaic.Lib.ValueIdx

noncomputable section

open scoped BigOperators

namespace Cert.NodeUpdate

open Idealize.ShloMosaic Idealize.ShloMosaic.ValueIdx

/-- The f32 pattern of 1.0 denotes the extended real one. -/
theorem one_f32 : Ideal.ofBits .f32 0x3F800000#32 = 1 := IdealRules.sign_bit.ideal_onePat .f32

/-- Feature `k` of node `r` averaged with the mean of the node's edge features:
    (node + sums / max (count, 1)) · ½. -/
def averaged (node sums : (⟨2, ![100000, 128]⟩ : Shape).Idx → EReal) (counts : (⟨2, ![100000, 1]⟩ : Shape).Idx → EReal)
    (r : Fin 100000) (k : Fin 128) : EReal :=
  (node (ix2 r k) + Ideal.div (sums (ix2 r k)) (max (counts (ix2 r (0 : Fin 1))) (Ideal.ofBits .f32 0x3F800000#32)))
    * Ideal.ofBits .f32 0x3F000000#32

/-- The updated features: logistic (∑ₖ averaged r k · W j k + b j) at entry (r, j). -/
def updated (node sums : (⟨2, ![100000, 128]⟩ : Shape).Idx → EReal) (counts : (⟨2, ![100000, 1]⟩ : Shape).Idx → EReal)
    (W : (⟨2, ![128, 128]⟩ : Shape).Idx → EReal) (b : (⟨1, ![128]⟩ : Shape).Idx → EReal) :
    (⟨2, ![100000, 128]⟩ : Shape).Idx → EReal := fun i =>
  Ideal.logistic ((∑ k : Fin 128, averaged node sums counts (i 0) k * W (ix2 (i 1) k)) + b (ix1 (i 1)))

/-- The logistic function written out with the literal one, 1 / (1 + e^(-y)), is the logistic function: on the
    extended reals it is DEFINED as that quotient, the infinities included (⊥ ↦ 0, ⊤ ↦ 1). -/
theorem logistic_spelled (y : EReal) :
    Ideal.div (Ideal.ofBits .f32 0x3F800000#32) (Ideal.ofBits .f32 0x3F800000#32 + Ideal.exp (-y)) = Ideal.logistic y := by
  rw [one_f32]; rfl

end Cert.NodeUpdate

end
-- ==== Proof.Body.lean ====
/-
  What one grid point computes, entry by entry.

  The body works on a block of 2000 nodes. Entry (p, q) of what it stores is the logistic function of
  ∑ₖ ((node p k + sums p k / max (count p, 1)) · ½) · W q k + b q, with node, sums and count the point's blocks and W, b
  whole: the contraction runs over the averaged block's last axis and the weights' last axis, into a zero
  accumulator; the narrowing of both operands to sixteen bits is the identity on the extended reals; the counts'
  column is broadcast along the features, the bias along the rows.
-/
import proofs.«161581_j86474871537828_1_alg».proof.Proof.Gen.KernelIdeal.Skeleton
import proofs.«161581_j86474871537828_1_alg».proof.Proof.Spec
import Idealize.ShloMosaic.Lib.ValueLayout
import Idealize.ShloMosaic.Lib.Pipeline.Value
import Idealize.ShloMosaic.PureOps.Ideal.Laws

noncomputable section

open scoped BigOperators

namespace Cert.NodeUpdate.Body

open Cert.KernelIdeal Cert.KernelIdeal.Gen Idealize.ShloMosaic Idealize.ShloMosaic.ValueIdx Cert.NodeUpdate

/-! ## The contraction's operand indices: both operands are contracted along axis 1 -/

/-- The left operand's row is the output's row. -/
theorem lhs_axis0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- The left operand's column is the contracted coordinate. -/
theorem lhs_axis1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
/-- The right operand's row is the output's column. -/
theorem rhs_axis0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
/-- The right operand's column is the contracted coordinate. -/
theorem rhs_axis1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- The contraction into the zero accumulator at (p, q): ∑ₖ l p k · r q k, the sum over the contracted coordinate. -/
theorem contraction_at {φ₁ φ₂ : FTy} (l : FVec Ideal S2000x128 φ₁) (r : FVec Ideal S128x128 φ₂) (p : Fin 2000) (q : Fin 128) :
    matmul (F := Ideal) dot_S2000x128_S128x128_S2000x128_1_1_0_0_n_n none l r (constant (F := Ideal) S2000x128 .f32 0x00000000#32) (ix2 p q)
      = ∑ k : Fin 128, l (ix2 p k) * r (ix2 q k) := by
  simp only [matmul]
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## A column broadcast along the other axis -/

/-- An [a, 1] column broadcast to [a, b] reads, at (p, c), the column's entry of row p. -/
theorem column_at {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rw [if_pos rfl]

/-! ## The stored value at an entry -/

/-- Entry (p, q) of what a point stores, from the point's blocks of counts, sums and node features, the weights and
    the bias. -/
theorem payload_at (cnt : Vec Ideal S2000x1 .f32) (sm nd : Vec Ideal S2000x128 .f32) (w : Vec Ideal S128x128 .f32)
    (bb : Vec Ideal S128 .f32) (p : Fin 2000) (q : Fin 128) :
    k0_pay1 (F := Ideal) cnt sm nd w bb (ix2 p q)
      = Ideal.logistic ((∑ k : Fin 128,
          ((nd (ix2 p k) + Ideal.div (sm (ix2 p k)) (max (cnt (ix2 p (0 : Fin 1))) (Ideal.ofBits .f32 0x3F800000#32)))
            * Ideal.ofBits .f32 0x3F000000#32) * w (ix2 q k)) + bb (ix1 q)) := by
  unfold k0_pay1
  rw [shapeCast_self, shapeCast_self]
  show Ideal.logistic (matmul (F := Ideal) dot_S2000x128_S128x128_S2000x128_1_1_0_0_n_n none _ _ (constant (F := Ideal) S2000x128 .f32 0x00000000#32) (ix2 p q)
      + broadcastTo S2000x128 (shapeCast S1x128 bb shapeCasts_S128_S1x128) broadcasts_S1x128_S2000x128 (ix2 p q)) = _
  rw [contraction_at, broadcastTo_1b_ab_apply, shapeCast_a_1a_apply]
  refine congrArg (fun s => Ideal.logistic (s + bb (ix1 q))) (Finset.sum_congr rfl fun k _ => ?_)
  show (nd (ix2 p k) + Ideal.div (sm (ix2 p k)) (broadcastTo S2000x128 (maximumf (F := Ideal) cnt (broadcast S2000x1 (FloatOps.ofBits (F := Ideal) .f32 0x3F800000#32))) broadcasts_S2000x1_S2000x128 (ix2 p k)))
      * Ideal.ofBits .f32 0x3F000000#32 * w (ix2 q k) = _
  rw [column_at]
  rfl

end Cert.NodeUpdate.Body

end
-- ==== Proof.Region.lean ====
/-
  The kernel program's result array, from blocks to the whole array.

  Before the region the host adds every edge's features into its target node's row (`edgeSums`) and a one per edge
  into its target node's entry (`edgeCounts`), the target being the first row of the edge index; the region finds
  these two arrays beside the arguments (`sums_found`, `counts_found`). The grid has 50 points; point t works on
  rows 2000 t … 2000 t + 1999 of the node features, of the sums and of the counts, and on the whole weights and bias
  (`idx_facts`, the block reads). By the body's value at an entry, what point t writes back is block t of `result`,
  the specification's function of the arguments and the two scattered arrays (`flushed_eq`). Row r lies in the block
  of point r / 2000, so the 50 blocks cover the array (`covered`) and the array ends holding `result` (`final`,
  `run`).
-/
import proofs.«161581_j86474871537828_1_alg».proof.Proof.Gen.KernelIdeal.Value
import proofs.«161581_j86474871537828_1_alg».proof.Proof.Body
import Idealize.ShloMosaic.Lib.Pipeline.Value
import Idealize.ShloMosaic.Lib.StableHlo.Run
import Idealize.ShloMosaic.Lib.Tactic

noncomputable section

open scoped BigOperators

namespace Cert.NodeUpdate.Region

open Cert.KernelIdeal Cert.KernelIdeal.Gen Cert.KernelIdeal.Value Idealize.ShloMosaic Idealize.ShloMosaic.TcCoe Idealize.SL.Sem
open Idealize.ShloMosaic.ValueIdx Cert.NodeUpdate
open Idealize.ShloMosaic.Pipeline (Dat)

variable (m : (ℓ : Loc nD τ sig) → Buf (Elt Ideal) ℓ) (ρ : Dev nD → PrngReg)

/-- The first row of the edge index as a column of start indices. -/
def targets (x2 : (⟨S2x625000, .i32⟩ : BufTy).Contents (Elt Ideal)) : (⟨S625000x1, .i32⟩ : BufTy).Contents (Elt Ideal) :=
  broadcastInDim S625000x1 ![0] bcast_S625000_S625000x1_0
    (shapeCast _ (extractStridedSlice S1x625000 ![0, 0] x2 slices_S2x625000_S1x625000_0_0) shapeCasts_S1x625000_S625000)

/-- The edge features added into their target nodes' rows, from zero. -/
def edgeSums (x1 : (⟨S625000x128, .f32⟩ : BufTy).Contents (Elt Ideal)) (x2 : (⟨S2x625000, .i32⟩ : BufTy).Contents (Elt Ideal)) :
    (⟨S100000x128, .f32⟩ : BufTy).Contents (Elt Ideal) :=
  Host.scatterAdd scatter_S100000x128_S625000x1_S625000x128_1_0_0_1 (broadcastInDim S100000x128 ![] bcast_S_S100000x128 (constant (F := Ideal) S_ .f32 0x00000000#32))
    (targets x2) x1

/-- A one per edge added into its target node's entry, from zero: the number of edges of each node. -/
def edgeCounts (x2 : (⟨S2x625000, .i32⟩ : BufTy).Contents (Elt Ideal)) : (⟨S100000x1, .f32⟩ : BufTy).Contents (Elt Ideal) :=
  Host.scatterAdd scatter_S100000x1_S625000x1_S625000x1_1_0_0_1 (broadcastInDim S100000x1 ![] bcast_S_S100000x1 (constant (F := Ideal) S_ .f32 0x00000000#32))
    (targets x2) (broadcastInDim S625000x1 ![] bcast_S_S625000x1 (constant (F := Ideal) S_ .f32 0x3F800000#32))

/-- When the region is entered the sums' array holds the scatter-add of the edge features as launched. -/
theorem sums_found (c : Dev nD) : (V m c main_v4 : S100000x128.Idx → EReal)
    = edgeSums (m ((c.tc : Thread nD τ).loc main_arg1)) (m ((c.tc : Thread nD τ).loc main_arg2)) := by
  dsimp only [Gen.V, Gen.hostOps0]; after_results; rfl

/-- … and the counts' array the scatter-add of the ones. -/
theorem counts_found (c : Dev nD) : (V m c main_v8 : S100000x1.Idx → EReal)
    = edgeCounts (m ((c.tc : Thread nD τ).loc main_arg2)) := by
  dsimp only [Gen.V, Gen.hostOps0]; after_results; rfl

/-- What the result array ends holding. -/
def result (c : Dev nD) : S100000x128.Idx → EReal :=
  updated (m ((c.tc : Thread nD τ).loc main_arg0))
    (edgeSums (m ((c.tc : Thread nD τ).loc main_arg1)) (m ((c.tc : Thread nD τ).loc main_arg2)))
    (edgeCounts (m ((c.tc : Thread nD τ).loc main_arg2)))
    (m ((c.tc : Thread nD τ).loc main_arg3)) (m ((c.tc : Thread nD τ).loc main_arg4))

/-- Offsets written as a literal vector are the zero offsets. -/
theorem hz : (![0, 0] : Fin 2 → Nat) = fun _ => 0 := funext fun a => by fin_cases a <;> rfl
theorem hz1 : (![0] : Fin 1 → Nat) = fun _ => 0 := funext fun a => by fin_cases a; rfl

/-- The printed index maps over the 50 points: the row-blocked windows sit at block t, the weights and bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of block t is row 2000 t + p of the array. -/
def rowOf (t : Fin cfg0.N) (p : Fin 2000) : Fin 100000 :=
  ⟨t.val * 2000 + p.val, by have h := t.isLt; have hN : cfg0.N = 50 := N_0; have := p.isLt; omega⟩

/-- Point t's block of the node features is rows 2000 t … of the argument. -/
theorem node_block (c : Dev nD) (t : Fin cfg0.N) (p : Fin 2000) (k : Fin 128) :
    (iblk m c 0 t : Vec Ideal S2000x128 .f32) (ix2 p k)
      = (m ((c.tc : Thread nD τ).loc main_arg0) : S100000x128.Idx → EReal) (ix2 (rowOf t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Point t's block of the sums is rows 2000 t … of the scattered sums. -/
theorem sums_block (c : Dev nD) (t : Fin cfg0.N) (p : Fin 2000) (k : Fin 128) :
    (iblk m c 1 t : Vec Ideal S2000x128 .f32) (ix2 p k)
      = edgeSums (m ((c.tc : Thread nD τ).loc main_arg1)) (m ((c.tc : Thread nD τ).loc main_arg2)) (ix2 (rowOf t p) k) := by
  obtain ⟨-, -, e0, e1, -⟩ := idx_facts t
  unfold iblk
  rw [View.read_apply]
  show V m c main_v4 _ = _
  rw [sums_found]
  congr 1
  funext a
  apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Point t's block of the counts is entries 2000 t … of the scattered counts. -/
theorem count_block (c : Dev nD) (t : Fin cfg0.N) (p : Fin 2000) :
    (iblk m c 2 t : Vec Ideal S2000x1 .f32) (ix2 p (0 : Fin 1))
      = edgeCounts (m ((c.tc : Thread nD τ).loc main_arg2)) (ix2 (rowOf t p) (0 : Fin 1)) := by
  obtain ⟨-, -, -, -, e0, e1, -⟩ := idx_facts t
  unfold iblk
  rw [View.read_apply]
  show V m c main_v8 _ = _
  rw [counts_found]
  congr 1
  funext a
  apply Fin.ext
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- Every point's block of the weights is the whole argument. -/
theorem weights_block (c : Dev nD) (t : Fin cfg0.N) (q : Fin 128) (k : Fin 128) :
    (iblk m c 3 t : Vec Ideal S128x128 .f32) (ix2 q k)
      = (m ((c.tc : Thread nD τ).loc main_arg3) : S128x128.Idx → EReal) (ix2 q k) := by
  obtain ⟨-, -, -, -, -, -, e0, e1, -⟩ := idx_facts t
  unfold iblk
  rw [View.read_apply]
  show V m c main_arg3 _ = _
  rw [V_main_arg3]
  congr 1
  funext a
  apply Fin.ext
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- Every point's block of the bias is the whole argument. -/
theorem bias_block (c : Dev nD) (t : Fin cfg0.N) (q : Fin 128) :
    (iblk m c 4 t : Vec Ideal S128 .f32) (ix1 q)
      = (m ((c.tc : Thread nD τ).loc main_arg4) : S128.Idx → EReal) (ix1 q) := by
  obtain ⟨-, -, -, -, -, -, -, -, e0, -⟩ := idx_facts t
  unfold iblk
  rw [View.read_apply]
  show V m c main_arg4 _ = _
  rw [V_main_arg4]
  congr 1
  funext a
  apply Fin.ext
  match a with
  | ⟨0, _⟩ => show win0_4.index t (0 : Fin 1) * 128 + 1 * q.val = q.val; rw [e0]; omega

/-- Entry (p, q) of point t's output block is entry (2000 t + p, q) of the result array. -/
theorem out_index (t : Fin cfg0.N) (p : Fin 2000) (q : Fin 128) :
    (((cfg0.win 5).blk t).view.emb (ix2 p q) : S100000x128.Idx) = ix2 (rowOf t p) q := by
  obtain ⟨-, -, -, -, -, -, -, -, -, e0, e1⟩ := idx_facts t
  funext a
  apply Fin.ext
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- WHAT POINT t WRITES BACK is block t of `result`: the body's entry (p, q), with each block read where it lies in its
    array, is the specification's entry (2000 t + p, q). -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S2000x128) hz, View.ld_unit_zero (S := S2000x1) hz,
    View.ld_unit_zero (S := S128x128) hz, View.ld_unit_zero (S := S128) hz1]
  funext j
  obtain ⟨p, q, rfl⟩ : ∃ (p : Fin 2000) (q : Fin 128), j = ix2 p q := ⟨j 0, j 1, eq_ix2 j⟩
  show k0_pay1 (F := Ideal) (iblk m c 2 t) (iblk m c 1 t) (iblk m c 0 t) (iblk m c 3 t) (iblk m c 4 t) (ix2 p q)
    = result m c (((cfg0.win 5).blk t).view.emb (ix2 p q))
  rw [out_index]
  refine (Body.payload_at (iblk m c 2 t) (iblk m c 1 t) (iblk m c 0 t) (iblk m c 3 t) (iblk m c 4 t) p q).trans ?_
  rw [bias_block]
  refine congrArg (fun s => Ideal.logistic (s + _)) (Finset.sum_congr rfl fun k _ => ?_)
  rw [node_block, sums_block, count_block, weights_block]
  rfl

/-- An index is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v9).slice (win0_5.rect t)).set ↔ _
  rw [View.set_slice_whole, Rect.mem_set_unit]
  exact Iff.rfl

/-- Row r is in the block of point r / 2000: the blocks cover the array. -/
theorem covered (i : S100000x128.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  have ht : (i 0).val / 2000 < cfg0.N := by rw [hN]; omega
  obtain ⟨-, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-- So the result array ends holding `result`. -/
theorem final (c : Dev nD) : (dats m 0 c).arrAt 5 cfg0.N = result m c :=
  (dats m 0 c).arrAt_eq_of_cover 5 (result m c) (fun t _ => flushed_eq m c t) covered

/-- The run, read: the result array at `result`, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.NodeUpdate.Region
end
-- ==== Proof.Reference.lean ====
/-
  The reference computes `updated`.

  Read one operation at a time, entry (r, j) of the reference's result is 1 / (1 + e^(-y)) with
  y = ∑ₖ ((node r k + sums r k / max (count r, 1)) · ½) · W j k + b j: the host's dot_general contracts the averaged
  features' last axis with the weights' last axis, the two broadcasts of the bias read entry j, the broadcast of the
  clamped counts reads row r's one entry. The quotient is the logistic function of y (`logistic_spelled`), so the
  result is `updated` of the arguments, of the scattered sums and of the scattered counts.
-/
import proofs.«161581_j86474871537828_1_alg».proof.Proof.Gen.ReferenceIdeal.Read
import proofs.«161581_j86474871537828_1_alg».proof.Proof.Spec

noncomputable section

open scoped BigOperators

namespace Cert.NodeUpdate.Ref

open Cert.ReferenceIdeal Cert.ReferenceIdeal.Gen Cert.ReferenceIdeal.Read Idealize.ShloMosaic Idealize.ShloMosaic.ValueIdx
open Cert.NodeUpdate

/-- The left operand of the contraction at (i, k) is entry (r, k) of the averaged features, r the row of i. -/
theorem lhs_index (i : S100000x128.Idx) (k : Fin 128) : lidx_main_v16 i k = ix2 (i 0) k :=
  funext fun a => by match a with | ⟨0, _⟩ => rfl | ⟨1, _⟩ => rfl

/-- The right operand at (i, k) is entry (j, k) of the weights, j the column of i. -/
theorem rhs_index (i : S100000x128.Idx) (k : Fin 128) : ridx_main_v16 i k = ix2 (i 1) k :=
  funext fun a => by match a with | ⟨0, _⟩ => rfl | ⟨1, _⟩ => rfl

/-- The clamped counts, broadcast along the features, read row r's one entry, whatever the feature k. -/
theorem count_index (i : S100000x128.Idx) (k : Fin 128) : idx_main_v11 (lidx_main_v16 i k) = ix2 (i 0) (0 : Fin 1) :=
  funext fun a => by match a with | ⟨0, _⟩ => rfl | ⟨1, _⟩ => rfl

/-- The bias, broadcast along the rows, reads entry j. -/
theorem bias_index (i : S100000x128.Idx) : idx_main_v17 (idx_main_v18 i) = ix1 (i 1) :=
  funext fun a => by match a with | ⟨0, _⟩ => rfl

/-- The reference's last stage is `updated` of the node features, the scattered sums, the scattered counts, the
    weights and the bias. -/
theorem reference_eq (x0 : (⟨S100000x128, .f32⟩ : BufTy).Contents (Elt Ideal)) (x1 : (⟨S625000x128, .f32⟩ : BufTy).Contents (Elt Ideal))
    (x2 : (⟨S2x625000, .i32⟩ : BufTy).Contents (Elt Ideal)) (x3 : (⟨S128x128, .f32⟩ : BufTy).Contents (Elt Ideal))
    (x4 : (⟨S128, .f32⟩ : BufTy).Contents (Elt Ideal)) :
    val_main_v25 (F := Ideal) x0 x1 x2 x3 x4
      = updated x0 (val_main_v4 (F := Ideal) x1 x2) (val_main_v8 (F := Ideal) x2) x3 x4 := by
  funext i
  rw [val_main_v25_apply, val_main_v24_apply, val_main_cst_5_apply, val_main_v23_apply, val_main_v22_apply,
    val_main_cst_4_apply, val_main_v21_apply, val_main_v20_apply, val_main_v19_apply, val_main_v16_apply,
    val_main_v18_apply, val_main_v17_apply]
  simp only [val_main_v15_apply, val_main_v13_apply, val_main_v12_apply, val_main_v14_apply, val_main_cst_3_apply,
    val_main_v11_apply, val_main_v10_apply, val_main_v9_apply, val_main_cst_2_apply]
  simp only [count_index]
  simp only [lhs_index, rhs_index, bias_index,
    Ideal.hostDivf_def, Ideal.addf_def, Ideal.hostUnary_exp_def, Ideal.hostNegf_def, Ideal.negf_def, Ideal.mulf_def,
    Ideal.maximumf_def, Ideal.ofBits_def]
  rw [logistic_spelled]
  simp only [updated, averaged]
  rfl

end Cert.NodeUpdate.Ref

end
-- ==== Proof.Agree.lean ====
/-
  The two programs end with equal results.

  Both programs scatter the edge features and the ones by the same two operations on the same operands, so the
  reference's two scatter stages ARE the kernel program's `edgeSums` and `edgeCounts` (`sums_same`, `counts_same`).
  The reference's result is `updated` of the arguments and those stages (`reference_eq`); the kernel program's result
  array ends holding `updated` of the arguments and its scattered arrays (`Region.run`). From memories that agree on
  the arguments the two results are one term.
-/
import proofs.«161581_j86474871537828_1_alg».proof.Defs
import proofs.«161581_j86474871537828_1_alg».proof.Proof.Gen.Pre_finite_inputs
import proofs.«161581_j86474871537828_1_alg».proof.Proof.Region
import proofs.«161581_j86474871537828_1_alg».proof.Proof.Reference

noncomputable section

namespace Cert.NodeUpdate.Agree

open Idealize.ShloMosaic Idealize.ShloMosaic.TcCoe Idealize.SL.Sem Cert.NodeUpdate

/-- The reference's scattered sums are the kernel program's. -/
theorem sums_same (x1 : (⟨Cert.KernelIdeal.S625000x128, .f32⟩ : BufTy).Contents (Elt Ideal))
    (x2 : (⟨Cert.KernelIdeal.S2x625000, .i32⟩ : BufTy).Contents (Elt Ideal)) :
    Cert.ReferenceIdeal.Read.val_main_v4 (F := Ideal) x1 x2 = Region.edgeSums x1 x2 := rfl

/-- The reference's scattered counts are the kernel program's. -/
theorem counts_same (x2 : (⟨Cert.KernelIdeal.S2x625000, .i32⟩ : BufTy).Contents (Elt Ideal)) :
    Cert.ReferenceIdeal.Read.val_main_v8 (F := Ideal) x2 = Region.edgeCounts x2 := rfl

/-- At the extended reals the kernel program's result array ends at `updated` of the arguments and the scattered
    arrays, and so does the reference's, from arguments that agree. -/
theorem algebraic : Cert.algebraic_KernelIdeal_ReferenceIdeal := by
  intro m ρ m' ρ' _ hagree
  refine ⟨fun c => Region.result m c, Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v25_eq _ _ _ _ _).trans ((Ref.reference_eq _ _ _ _ _).trans ?_)
  rw [sums_same, counts_same]
  rfl

end Cert.NodeUpdate.Agree

end
-- ==== Proof.lean ====
/- The certificate of a node update of a graph network against its jnp reference.

   Each node's feature row is averaged with the mean of the features of the edges that point at it (an edge's target
   is the first row of the edge index; a node no edge points at divides its zero sum by one), the averaged row is
   contracted with each row of a 128 × 128 weight matrix, a bias is added and the logistic function applied. The
   kernel program scatters the sums and the counts on the host and does the rest in one pipelined region over 50
   blocks of 2000 nodes; the reference does everything on the host and spells the logistic function as
   1 / (1 + e^(-y)).

   The three frames: the word-level and the idealized kernel program by their generated frame runs, the reference by
   its generated run with the result dropped. The idealization rewrote no operation, so `preserves` asks nothing.
   The two idealized programs end with equal results (`Agree.algebraic`): entry by entry both are one function,
   `NodeUpdate.updated`, of the arguments and of the same two scattered arrays — the contraction a sum over the
   shared last axis on both sides, the narrowing to sixteen bits the identity on the extended reals, the logistic
   function defined as the quotient the reference spells. No law of the extended reals beyond that definition is
   used, so the precondition is never opened. -/
import proofs.«161581_j86474871537828_1_alg».proof.Defs
import proofs.«161581_j86474871537828_1_alg».proof.Proof.Gen.Kernel
import proofs.«161581_j86474871537828_1_alg».proof.Proof.Gen.Kernel.Skeleton
import proofs.«161581_j86474871537828_1_alg».proof.Proof.Gen.Kernel.Launch
import proofs.«161581_j86474871537828_1_alg».proof.Proof.Gen.Kernel.Points
import proofs.«161581_j86474871537828_1_alg».proof.Proof.Gen.Kernel.Frame
import proofs.«161581_j86474871537828_1_alg».proof.Proof.Gen.KernelIdeal
import proofs.«161581_j86474871537828_1_alg».proof.Proof.Gen.KernelIdeal.Skeleton
import proofs.«161581_j86474871537828_1_alg».proof.Proof.Gen.KernelIdeal.Launch
import proofs.«161581_j86474871537828_1_alg».proof.Proof.Gen.KernelIdeal.Points
import proofs.«161581_j86474871537828_1_alg».proof.Proof.Gen.KernelIdeal.Frame
import proofs.«161581_j86474871537828_1_alg».proof.Proof.Gen.ReferenceIdeal
import proofs.«161581_j86474871537828_1_alg».proof.Proof.Gen.Pre_finite_inputs
import proofs.«161581_j86474871537828_1_alg».proof.Proof.Gen.KernelIdeal.Value
import proofs.«161581_j86474871537828_1_alg».proof.Proof.Gen.ReferenceIdeal.Run
import proofs.«161581_j86474871537828_1_alg».proof.Proof.Gen.ReferenceIdeal.Read
import proofs.«161581_j86474871537828_1_alg».proof.Proof.Agree
import Idealize.ShloMosaic.Adequacy
import Idealize.ShloMosaic.Init

noncomputable section

namespace Cert.Proof

open Idealize.ShloMosaic Idealize.SL.Sem Cert.Kernel

/-- The word-level kernel program runs and leaves its arguments as they were. -/
theorem frame_kernel : Cert.frame_Kernel := fun m ρ _ => Cert.Kernel.Gen.frame m ρ

/-- So does the idealized one. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.NodeUpdate.Agree.algebraic⟩

end Cert.Proof

end
